-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x21x512x512 : Shape := ⟨4, ![8, 21, 512, 512]⟩
abbrev S8x512x512 : Shape := ⟨3, ![8, 512, 512]⟩
abbrev S_ : Shape := ⟨0, ![]⟩

class Facts : Prop where
  bcast_S_S8x21x512x512 : S_.BroadcastsInDim S8x21x512x512 (![] : Fin 0 → Fin S8x21x512x512.rank)
  reducesTo_S8x21x512x512_S_d0_1_2_3 : S8x21x512x512.ReducesTo [0, 1, 2, 3] S_
  h_S_ : 0 < S_.numel
  bcast_S_S8x512x512 : S_.BroadcastsInDim S8x512x512 (![] : Fin 0 → Fin S8x512x512.rank)
  reducesTo_S8x512x512_S_d0_1_2 : S8x512x512.ReducesTo [0, 1, 2] S_

variable [Facts]

def fn {F : FTy → Type} [FloatOps F] (main_arg0 : FVec F S8x21x512x512 .f32) (main_arg1 : IVec S8x512x512 32) : IVec S_ 1 :=
  let main_v0 : FVec F S8x21x512x512 .f32 := Host.absf main_arg0
  let main_cst : FVec F S_ .f32 := constant S_ .f32 0x7F800000#32
  let main_v1 : FVec F S8x21x512x512 .f32 := broadcastInDim S8x21x512x512 ![] bcast_S_S8x21x512x512 main_cst
  let main_v2 : IVec S8x21x512x512 1 := cmpf .olt main_v0 main_v1
  let main_c : IVec S_ 1 := constantI S_ 1 1#1
  let main_v3 : IVec S_ 1 := (fun x v => Host.reduce IntOp.andi x v reducesTo_S8x21x512x512_S_d0_1_2_3 h_S_) main_v2 main_c
  let main_c_0 : IVec S_ 32 := constantI S_ 32 0#32
  let main_v4 : IVec S8x512x512 32 := broadcastInDim S8x512x512 ![] bcast_S_S8x512x512 main_c_0
  let main_v5 : IVec S8x512x512 1 := cmpi .sge main_arg1 main_v4
  let main_c_1 : IVec S_ 1 := constantI S_ 1 1#1
  let main_v6 : IVec S_ 1 := (fun x v => Host.reduce IntOp.andi x v reducesTo_S8x512x512_S_d0_1_2 h_S_) main_v5 main_c_1
  let main_v7 : IVec S_ 1 := andi main_v3 main_v6
  let main_c_2 : IVec S_ 32 := constantI S_ 32 21#32
  let main_v8 : IVec S8x512x512 32 := broadcastInDim S8x512x512 ![] bcast_S_S8x512x512 main_c_2
  let main_v9 : IVec S8x512x512 1 := cmpi .slt main_arg1 main_v8
  let main_c_3 : IVec S_ 1 := constantI S_ 1 1#1
  let main_v10 : IVec S_ 1 := (fun x v => Host.reduce IntOp.andi x v reducesTo_S8x512x512_S_d0_1_2 h_S_) main_v9 main_c_3
  let main_v11 : IVec S_ 1 := andi main_v7 main_v10
  main_v11
-- ==== Kernel.lean ====
abbrev S8x21x512x512 : Shape := ⟨4, ![8, 21, 512, 512]⟩
abbrev S8x512x512 : Shape := ⟨3, ![8, 512, 512]⟩
abbrev S8x2x8x128 : Shape := ⟨4, ![8, 2, 8, 128]⟩
abbrev S1x21x256x512 : Shape := ⟨4, ![1, 21, 256, 512]⟩
abbrev S1x256x512 : Shape := ⟨3, ![1, 256, 512]⟩
abbrev S1x1x8x128 : Shape := ⟨4, ![1, 1, 8, 128]⟩
abbrev S21x256x512 : Shape := ⟨3, ![21, 256, 512]⟩
abbrev S256x512 : Shape := ⟨2, ![256, 512]⟩
abbrev S1 : Shape := ⟨1, ![1]⟩
abbrev S1x1x1 : Shape := ⟨3, ![1, 1, 1]⟩
abbrev S8x128 : Shape := ⟨2, ![8, 128]⟩
abbrev S_ : Shape := ⟨0, ![]⟩

abbrev nBuf : Space → Nat
  | .hbm => 8
  | .vmem => 6
  | .smem => 0
  | _ => 0

abbrev bufTy : (tb : Table) → Fin (tcTables nBuf tb) → BufTy
  | .hbm, ⟨0, _⟩ => ⟨S8x21x512x512, .f32⟩
  | .hbm, ⟨1, _⟩ => ⟨S8x512x512, .i32⟩
  | .hbm, ⟨2, _⟩ => ⟨S8x2x8x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S1x21x256x512, .f32⟩
  | .local _ .vmem, ⟨1, _⟩ => ⟨S1x21x256x512, .f32⟩
  | .local _ .vmem, ⟨2, _⟩ => ⟨S1x256x512, .i32⟩
  | .local _ .vmem, ⟨3, _⟩ => ⟨S1x256x512, .i32⟩
  | .local _ .vmem, ⟨4, _⟩ => ⟨S1x1x8x128, .f32⟩
  | .local _ .vmem, ⟨5, _⟩ => ⟨S1x1x8x128, .f32⟩
  | _, _ => ⟨S8x21x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x21x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x21x256x512_S1x21x256x512_0_0_0_0 : ∀ a, (![0, 0, 0, 0] : Fin 4 → Nat) a + S1x21x256x512.size a ≤ S1x21x256x512.size a
  h_S1x21x256x512 : 0 < S1x21x256x512.numel
  shapeCasts_S1x21x256x512_S21x256x512 : S1x21x256x512.ShapeCasts S21x256x512
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  reduces_S21x256x512_S256x512 : S21x256x512.Reduces [0] S256x512
  shapeCasts_S256x512_S1x256x512 : S256x512.ShapeCasts S1x256x512
  broadcasts_S1x256x512_S21x256x512 : S1x256x512.Broadcasts S21x256x512
  slices_S21x256x512_o0_0_0_S1x256x512 : S21x256x512.Slices ![0, 0, 0] S1x256x512
  slices_S21x256x512_o1_0_0_S1x256x512 : S21x256x512.Slices ![1, 0, 0] S1x256x512
  slices_S21x256x512_o2_0_0_S1x256x512 : S21x256x512.Slices ![2, 0, 0] S1x256x512
  slices_S21x256x512_o3_0_0_S1x256x512 : S21x256x512.Slices ![3, 0, 0] S1x256x512
  slices_S21x256x512_o4_0_0_S1x256x512 : S21x256x512.Slices ![4, 0, 0] S1x256x512
  slices_S21x256x512_o5_0_0_S1x256x512 : S21x256x512.Slices ![5, 0, 0] S1x256x512
  slices_S21x256x512_o6_0_0_S1x256x512 : S21x256x512.Slices ![6, 0, 0] S1x256x512
  slices_S21x256x512_o7_0_0_S1x256x512 : S21x256x512.Slices ![7, 0, 0] S1x256x512
  slices_S21x256x512_o8_0_0_S1x256x512 : S21x256x512.Slices ![8, 0, 0] S1x256x512
  slices_S21x256x512_o9_0_0_S1x256x512 : S21x256x512.Slices ![9, 0, 0] S1x256x512
  slices_S21x256x512_o10_0_0_S1x256x512 : S21x256x512.Slices ![10, 0, 0] S1x256x512
  slices_S21x256x512_o11_0_0_S1x256x512 : S21x256x512.Slices ![11, 0, 0] S1x256x512
  slices_S21x256x512_o12_0_0_S1x256x512 : S21x256x512.Slices ![12, 0, 0] S1x256x512
  slices_S21x256x512_o13_0_0_S1x256x512 : S21x256x512.Slices ![13, 0, 0] S1x256x512
  slices_S21x256x512_o14_0_0_S1x256x512 : S21x256x512.Slices ![14, 0, 0] S1x256x512
  slices_S21x256x512_o15_0_0_S1x256x512 : S21x256x512.Slices ![15, 0, 0] S1x256x512
  slices_S21x256x512_o16_0_0_S1x256x512 : S21x256x512.Slices ![16, 0, 0] S1x256x512
  slices_S21x256x512_o17_0_0_S1x256x512 : S21x256x512.Slices ![17, 0, 0] S1x256x512
  slices_S21x256x512_o18_0_0_S1x256x512 : S21x256x512.Slices ![18, 0, 0] S1x256x512
  slices_S21x256x512_o19_0_0_S1x256x512 : S21x256x512.Slices ![19, 0, 0] S1x256x512
  slices_S21x256x512_o20_0_0_S1x256x512 : S21x256x512.Slices ![20, 0, 0] S1x256x512
  reduces_S1x256x512_S1 : S1x256x512.Reduces [1, 2] S1
  shapeCasts_S1_S1x1x1 : S1.ShapeCasts S1x1x1
  inpos_S1x1x1_p0_0_0 : ∀ a, (![0, 0, 0] : Fin 3 → Nat) a < S1x1x1.size a
  iota_S8x128_d0_w32 : S8x128.Iotas .tc 32 [0]
  iota_S8x128_d1_w32 : S8x128.Iotas .tc 32 [1]
  inb_S1x1x8x128_S1x1x8x128_0_0_0_0 : ∀ a, (![0, 0, 0, 0] : Fin 4 → Nat) a + S1x1x8x128.size a ≤ S1x1x8x128.size a
  h_S1x1x8x128 : 0 < S1x1x8x128.numel
  shapeCasts_S1x1x8x128_S8x128 : S1x1x8x128.ShapeCasts S8x128
  shapeCasts_S8x128_S1x1x8x128 : S8x128.ShapeCasts S1x1x8x128
  reducesTo_S8x2x8x128_S_d0_1_2_3 : S8x2x8x128.ReducesTo [0, 1, 2, 3] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x21x256x512.size a ≤ S8x21x512x512.size a
  hwx0_0 : ∀ i : grid0.Coords, EltTy.bits .f32 = 32 ∨ (Rect.block (s := S8x21x512x512) S1x21x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x512.size a ≤ S8x512x512.size a
  hwx0_1 : ∀ i : grid0.Coords, EltTy.bits .i32 = 32 ∨ (Rect.block (s := S8x512x512) S1x256x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x8x128.size a ≤ S8x2x8x128.size a
  hwx0_2 : ∀ i : grid0.Coords, EltTy.bits .f32 = 32 ∨ (Rect.block (s := S8x2x8x128) S1x1x8x128.size (cc0_transform_2 i) (hinb0_2 i)).WholeWords (EltTy.packing .f32)

variable [Facts₀]

abbrev win0_0 : Pipeline.Window sig grid0 :=
  Pipeline.Window.ofSpec (Memref.whole main_arg0) S1x21x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x21x512x512 : Shape := ⟨4, ![8, 21, 512, 512]⟩
abbrev S8x512x512 : Shape := ⟨3, ![8, 512, 512]⟩
abbrev S_ : Shape := ⟨0, ![]⟩
abbrev S8x1x512x512 : Shape := ⟨4, ![8, 1, 512, 512]⟩
abbrev S8x1x512x512x1 : Shape := ⟨5, ![8, 1, 512, 512, 1]⟩
abbrev S1 : Shape := ⟨1, ![1]⟩
abbrev S1x1x1x1x1 : Shape := ⟨5, ![1, 1, 1, 1, 1]⟩

abbrev nBuf : Space → Nat
  | .hbm => 46
  | .vmem => 0
  | .smem => 0
  | _ => 0

abbrev bufTy : (tb : Table) → Fin (tcTables nBuf tb) → BufTy
  | .hbm, ⟨0, _⟩ => ⟨S8x21x512x512, .f32⟩
  | .hbm, ⟨1, _⟩ => ⟨S8x512x512, .i32⟩
  | .hbm, ⟨2, _⟩ => ⟨S_, .f32⟩
  | .hbm, ⟨3, _⟩ => ⟨S8x512x512, .f32⟩
  | .hbm, ⟨4, _⟩ => ⟨S_, .f32⟩
  | .hbm, ⟨5, _⟩ => ⟨S8x512x512, .f32⟩
  | .hbm, ⟨6, _⟩ => ⟨S8x512x512, .f32⟩
  | .hbm, ⟨7, _⟩ => ⟨S8x1x512x512, .f32⟩
  | .hbm, ⟨8, _⟩ => ⟨S8x21x512x512, .f32⟩
  | .hbm, ⟨9, _⟩ => ⟨S8x21x512x512, .f32⟩
  | .hbm, ⟨10, _⟩ => ⟨S8x21x512x512, .f32⟩
  | .hbm, ⟨11, _⟩ => ⟨S_, .f32⟩
  | .hbm, ⟨12, _⟩ => ⟨S8x512x512, .f32⟩
  | .hbm, ⟨13, _⟩ => ⟨S8x1x512x512, .f32⟩
  | .hbm, ⟨14, _⟩ => ⟨S8x1x512x512, .f32⟩
  | .hbm, ⟨15, _⟩ => ⟨S8x21x512x512, .f32⟩
  | .hbm, ⟨16, _⟩ => ⟨S8x21x512x512, .f32⟩
  | .hbm, ⟨17, _⟩ => ⟨S8x1x512x512, .i32⟩
  | .hbm, ⟨18, _⟩ => ⟨S_, .i32⟩
  | .hbm, ⟨19, _⟩ => ⟨S8x1x512x512, .i32⟩
  | .hbm, ⟨20, _⟩ => ⟨S8x1x512x512, .i1⟩
  | .hbm, ⟨21, _⟩ => ⟨S_, .i32⟩
  | .hbm, ⟨22, _⟩ => ⟨S8x1x512x512, .i32⟩
  | .hbm, ⟨23, _⟩ => ⟨S8x1x512x512, .i32⟩
  | .hbm, ⟨24, _⟩ => ⟨S8x1x512x512, .i32⟩
  | .hbm, ⟨25, _⟩ => ⟨S8x1x512x512x1, .i32⟩
  | .hbm, ⟨26, _⟩ => ⟨S1, .i32⟩
  | .hbm, ⟨27, _⟩ => ⟨S_, .i32⟩
  | .hbm, ⟨28, _⟩ => ⟨S8x1x512x512x1, .i32⟩
  | .hbm, ⟨29, _⟩ => ⟨S8x1x512x512x1, .i1⟩
  | .hbm, ⟨30, _⟩ => ⟨S1x1x1x1x1, .i32⟩
  | .hbm, ⟨31, _⟩ => ⟨S8x1x512x512x1, .i32⟩
  | .hbm, ⟨32, _⟩ => ⟨S8x1x512x512x1, .i1⟩
  | .hbm, ⟨33, _⟩ => ⟨S8x1x512x512x1, .i1⟩
  | .hbm, ⟨34, _⟩ => ⟨S_, .i1⟩
  | .hbm, ⟨35, _⟩ => ⟨S8x1x512x512, .i1⟩
  | .hbm, ⟨36, _⟩ => ⟨S8x1x512x512, .f32⟩
  | .hbm, ⟨37, _⟩ => ⟨S_, .f32⟩
  | .hbm, ⟨38, _⟩ => ⟨S8x1x512x512, .f32⟩
  | .hbm, ⟨39, _⟩ => ⟨S8x1x512x512, .f32⟩
  | .hbm, ⟨40, _⟩ => ⟨S8x512x512, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | _, _ => ⟨S8x21x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_cst : Ref sig .tc := ⟨.hbm, 37, rfl⟩
abbrev main_call1_v14 : Ref sig .tc := ⟨.hbm, 38, rfl⟩
abbrev main_v2 : Ref sig .tc := ⟨.hbm, 39, rfl⟩
abbrev main_v3 : Ref sig .tc := ⟨.hbm, 40, rfl⟩
abbrev main_cst : Ref sig .tc := ⟨.hbm, 41, rfl⟩
abbrev main_v4 : Ref sig .tc := ⟨.hbm, 42, rfl⟩
abbrev main_cst_0 : Ref sig .tc := ⟨.hbm, 43, rfl⟩
abbrev main_v5 : Ref sig .tc := ⟨.hbm, 44, rfl⟩
abbrev main_v6 : Ref sig .tc := ⟨.hbm, 45, rfl⟩

abbrev nD : Nat := 1
abbrev τ : Topo := Topo.v7x

variable {F : FTy → Type} [FloatOps F]

class Facts₀ : Prop where
  reducesTo_S8x21x512x512_S8x512x512_d1 : S8x21x512x512.ReducesTo [1] S8x512x512
  h_S_ : 0 < S_.numel
  bcast_S_S8x512x512 : S_.BroadcastsInDim S8x512x512 (![] : Fin 0 → Fin S8x512x512.rank)
  bcast_S8x512x512_S8x1x512x512_0_2_3 : S8x512x512.BroadcastsInDim S8x1x512x512 (![0, 2, 3] : Fin 3 → Fin S8x1x512x512.rank)
  bcast_S8x1x512x512_S8x21x512x512_0_1_2_3 : S8x1x512x512.BroadcastsInDim S8x21x512x512 (![0, 1, 2, 3] : Fin 4 → Fin S8x21x512x512.rank)
  bcast_S_S8x1x512x512 : S_.BroadcastsInDim S8x1x512x512 (![] : Fin 0 → Fin S8x1x512x512.rank)
  shapeCasts_S8x1x512x512_S8x1x512x512x1 : S8x1x512x512.ShapeCasts S8x1x512x512x1
  bcast_S_S8x1x512x512x1 : S_.BroadcastsInDim S8x1x512x512x1 (![] : Fin 0 → Fin S8x1x512x512x1.rank)
  bcast_S1_S1x1x1x1x1_4 : S1.BroadcastsInDim S1x1x1x1x1 (![4] : Fin 1 → Fin S1x1x1x1x1.rank)
  bcast_S1x1x1x1x1_S8x1x512x512x1_0_1_2_3_4 : S1x1x1x1x1.BroadcastsInDim S8x1x512x512x1 (![0, 1, 2, 3, 4] : Fin 5 → Fin S8x1x512x512x1.rank)
  reducesTo_S8x1x512x512x1_S8x1x512x512_d4 : S8x1x512x512x1.ReducesTo [4] S8x1x512x512
  shapeCasts_S8x1x512x512_S8x512x512 : S8x1x512x512.ShapeCasts S8x512x512
  reducesTo_S8x512x512_S_d0_1_2 : S8x512x512.ReducesTo [0, 1, 2] S_
  gather_S8x21x512x512_S8x1x512x512x1_S8x1x512x512_n_1_023_023_1_4_1111_wf : GatherDims.WF S8x21x512x512 S8x1x512x512x1 S8x1x512x512 [] [1] [0, 2, 3] [1] [0, 2, 3] 4 ![1, 1, 1, 1]

variable [Facts₀]

def gather_S8x21x512x512_S8x1x512x512x1_S8x1x512x512_n_1_023_023_1_4_1111 : GatherDims S8x21x512x512 S8x1x512x512x1 S8x1x512x512 where
  offsetDims := []
  collapsedSliceDims := [1]
  operandBatchingDims := [0, 2, 3]
  startIndicesBatchingDims := [0, 2, 3]
  startIndexMap := [1]
  indexVectorDim := 4
  sliceSizes := ![1, 1, 1, 1]
  wf := gather_S8x21x512x512_S8x1x512x512x1_S8x1x512x512_n_1_023_023_1_4_1111_wf

class Facts : Prop extends Facts₀ where

variable [Facts]
-- ==== Proof.PreDecode.lean ====
/-
  THE PRECONDITION DECODED. The printed predicate says: every |logit| is below +∞, every label word is at least 0
  signed, and every label word is below 21 signed — each statement an and-reduction of an array of bits to one bit,
  the three bits joined by and. From "the result is 1" follows: every logit is a real number (an extended real x with
  max x (-x) < ⊤ is neither ⊤ nor ⊥), and every label word, read unsigned, is below 21 (a word in [0, 21) signed has
  its sign bit clear, so it reads the same unsigned).
-/
import proofs.«411214_j72851235275272_3_alg».proof.Pre_finite_inputs
import Idealize.ShloMosaic.PureOps.Ideal
import Idealize.ShloMosaic.Lib.ReduceAll
import Idealize.ShloMosaic.Lib.ValueIdx
import Idealize.ShloMosaic.Lib.StableHlo.Predicate

noncomputable section

namespace Cert.PreDecode

open Idealize.ShloMosaic
open Cert.Pre_finite_inputs

variable [Cert.Pre_finite_inputs.Facts]

/-- The rank-0 shape has one index. -/
instance : Subsingleton S_.Idx := ⟨fun a b => funext fun d => d.elim0⟩

/-- The f32 pattern 0x7F800000 is +∞. -/
theorem ofBits_inf : Ideal.ofBits .f32 0x7F800000#32 = (⊤ : EReal) := by simp [Ideal.ofBits, Ideal.ieee]

/-- An extended real whose absolute value max x (-x) compares below +∞ is a real number. -/
theorem real_of_abs_lt_inf (x : EReal)
    (h : Ideal.cmp .olt (max x (-x)) (Ideal.ofBits .f32 0x7F800000#32) = 1#1) : ∃ r : ℝ, x = (r : EReal) := by
  rw [ofBits_inf] at h
  unfold Ideal.cmp at h
  rw [StableHlo.Predicate.ofBool_eq_one_iff] at h
  have h' : max x (-x) < ⊤ := of_decide_eq_true h
  rw [max_lt_iff] at h'
  induction x using EReal.rec with
  | bot => exact absurd h'.2 (by simp)
  | coe r => exact ⟨r, rfl⟩
  | top => exact absurd h'.1 (lt_irrefl _)

/-- A 32-bit word that is at least 0 and below 21 as a signed number is below 21 as an unsigned number. -/
theorem toNat_lt_21 (w : BitVec 32) (h0 : IntOp.cmpi .sge w 0#32 = 1#1) (h1 : IntOp.cmpi .slt w 21#32 = 1#1) :
    w.toNat < 21 := by
  unfold IntOp.cmpi at h0 h1
  rw [StableHlo.Predicate.ofBool_eq_one_iff] at h0 h1
  have hw := w.isLt
  simp only [BitVec.sle, BitVec.slt, decide_eq_true_eq, BitVec.toInt_eq_toNat_cond, BitVec.toNat_ofNat] at h0 h1
  split at h1 <;> omega

theorem decode (X : FVec Ideal Cert.Pre_finite_inputs.S8x21x512x512 .f32) (T : IVec Cert.Pre_finite_inputs.S8x512x512 32)
    (h : Cert.Pre_finite_inputs.fn (F := Ideal) X T = fun _ => 1#1) :
    (∀ i, ∃ r : ℝ, X i = (r : EReal)) ∧ (∀ j, (T j).toNat < 21) := by
  have e := congrFun h ValueIdx.ix0
  unfold Cert.Pre_finite_inputs.fn at e
  dsimp only at e
  -- the three bits
  obtain ⟨e12, e3⟩ := IntOp.andi_eq_one.1 e
  obtain ⟨e1, e2⟩ := IntOp.andi_eq_one.1 e12
  refine ⟨fun i => ?_, fun j => ?_⟩
  · -- the bit at logit i: |X i| < +∞
    have b := Host.reduce_andi_all _ _ _ _ _ e1 i
    exact real_of_abs_lt_inf (X i) b
  · -- the two bits at label j: 0 ≤ T j, T j < 21, signed
    have b0 := Host.reduce_andi_all _ _ _ _ _ e2 j
    have b1 := Host.reduce_andi_all _ _ _ _ _ e3 j
    exact toNat_lt_21 (T j) b0 b1

end Cert.PreDecode

end
-- ==== Proof.PixelLoss.lean ====
/-
  The mathematics both programs compute: the mean negative log-likelihood of a label map under per-pixel softmax.

  A pixel carries a FIBER of 21 logits `a : Fin 21 → EReal` and a label word `t`. With `M = max_k a k` (the fold of `max`
  from −∞) and `S = Σ_k exp (a k − M)`, the pixel's log-probability of its label is written two ways:
  the kernel's `a t − (M + log S)` and the reference's `(a t − M) − log S`. On the extended reals subtraction does not
  re-associate at the infinities, so the two agree because `M` is a real number, which it is when every logit is
  (`logProb_eq`); `log S` may be anything. The loss is minus the total over the pixels divided by their number,
  2²¹; the kernel negates before it divides, the reference after (`div_neg_count`).

  The kernel does not total the pixels directly: the block of grid point (b, hb) — 256 rows of image b — leaves its
  partial total at entry [0, 0] of an 8 × 128 tile of zeros, and the host adds up every entry of every tile.
  `total_tiles` says that this is the total over all 8 × 512 × 512 pixels.
-/
import Idealize.ShloMosaic.PureOps.Ideal
import Idealize.ShloMosaic.PureOps.Ideal.Laws
import Idealize.ShloMosaic.Lib.ValueIdx

noncomputable section

namespace Cert.PixelLoss

open Idealize.ShloMosaic Idealize.ShloMosaic.ValueIdx

/-- −∞, as both programs spell the neutral element of their maximum. -/
abbrev negInf : EReal := Ideal.ofBits .f32 0xFF800000#32

/-- The number of pixels, 8 · 512 · 512 = 2²¹, as both programs spell it. -/
abbrev pixelCount : EReal := Ideal.ofBits .f32 0x4A000000#32

/-- The largest logit of a fiber. -/
def fiberMax (a : Fin 21 → EReal) : EReal := (Finset.univ : Finset (Fin 21)).fold max negInf a

/-- `Σ_k exp (a k − max a)`. -/
def fiberExpSum (a : Fin 21 → EReal) : EReal := ∑ k : Fin 21, Ideal.exp (a k - fiberMax a)

/-- A label word as a class; a word outside `[0, 20]` (which the precondition excludes) reads as class 20. -/
def labelClass (t : BitVec 32) : Fin 21 := ⟨min t.toNat 20, by omega⟩

/-- The label's log-probability, the kernel's way: `a t − (M + log S)`. -/
def logProbK (a : Fin 21 → EReal) (t : BitVec 32) : EReal :=
  a (labelClass t) - (fiberMax a + Ideal.log (fiberExpSum a))

/-- The label's log-probability, the reference's way: `(a t − M) − log S`. -/
def logProbR (a : Fin 21 → EReal) (t : BitVec 32) : EReal :=
  (a (labelClass t) - fiberMax a) - Ideal.log (fiberExpSum a)

/-- What the block of one grid point leaves at entry [r, c] of its 8 × 128 tile, as a function of the block's logits
    `x0` ([1, 21, 256, 512]) and labels `x1` ([1, 256, 512]): the total of the block's 256 × 512 log-probabilities at
    [0, 0], zero elsewhere. -/
def tileEntry (x0 : (⟨4, ![1, 21, 256, 512]⟩ : Shape).Idx → EReal) (x1 : (⟨3, ![1, 256, 512]⟩ : Shape).Idx → BitVec 32)
    (r : Fin 8) (c : Fin 128) : EReal :=
  if r.val = 0 ∧ c.val = 0 then
    ∑ q : (⟨3, ![1, 256, 512]⟩ : Shape).Idx, logProbK (fun k => x0 (ix4 0 k (q 1) (q 2))) (x1 q)
  else 0

/-- The reference's loss: minus the mean over the pixels of the label's log-probability, the reference's way. -/
def lossR (X : (⟨4, ![8, 21, 512, 512]⟩ : Shape).Idx → EReal) (T : (⟨3, ![8, 512, 512]⟩ : Shape).Idx → BitVec 32) : EReal :=
  -(Ideal.div (∑ j : (⟨3, ![8, 512, 512]⟩ : Shape).Idx, logProbR (fun k => X (ix4 (j 0) k (j 1) (j 2))) (T j)) pixelCount)

theorem negInf_eq : negInf = ⊥ := by
  simp [negInf, Ideal.ofBits, Ideal.ieee]

theorem pixelCount_eq : pixelCount = ((2097152 : ℝ) : EReal) := by
  simp [pixelCount, Ideal.ofBits, Ideal.ieee, -EReal.coe_mul]
  norm_num

/-- A fiber of real logits has a real maximum: it is at least the first logit and below +∞ as each logit is. -/
theorem fiberMax_real {a : Fin 21 → EReal} (ha : ∀ k, ∃ r : ℝ, a k = (r : EReal)) : ∃ r : ℝ, fiberMax a = (r : EReal) := by
  have hbot : fiberMax a ≠ ⊥ := by
    obtain ⟨r, hr⟩ := ha 0
    have h : a 0 ≤ fiberMax a := (Finset.le_fold_max (a 0)).mpr (Or.inr ⟨0, Finset.mem_univ _, le_rfl⟩)
    intro e
    rw [e, hr] at h
    exact absurd (le_bot_iff.mp h) (EReal.coe_ne_bot r)
  have htop : fiberMax a ≠ ⊤ := by
    have h : fiberMax a < ⊤ := (Finset.fold_max_lt ⊤).mpr ⟨by rw [negInf_eq]; exact bot_lt_top, fun k _ => by
      obtain ⟨r, hr⟩ := ha k; rw [hr]; exact EReal.coe_lt_top r⟩
    exact ne_of_lt h
  exact ⟨(fiberMax a).toReal, (EReal.coe_toReal htop hbot).symm⟩

/-- The two spellings of the label's log-probability agree on a fiber of real logits. -/
theorem logProb_eq {a : Fin 21 → EReal} (ha : ∀ k, ∃ r : ℝ, a k = (r : EReal)) (t : BitVec 32) :
    logProbK a t = logProbR a t := by
  obtain ⟨M, hM⟩ := fiberMax_real ha
  unfold logProbK logProbR
  rw [hM]
  generalize Ideal.log (fiberExpSum a) = l
  generalize a (labelClass t) = x
  rw [sub_eq_add_neg, EReal.neg_add (Or.inl (EReal.coe_ne_bot M)) (Or.inl (EReal.coe_ne_top M)),
    sub_eq_add_neg (-(M : EReal)) l, sub_eq_add_neg x, sub_eq_add_neg (x + -(M : EReal)) l, add_assoc]

/-- Negating before or after the division by the pixel count is the same. -/
theorem div_neg_count (s : EReal) : Ideal.div (-s) pixelCount = -(Ideal.div s pixelCount) := by
  rw [pixelCount_eq, Ideal.div_coe (by norm_num : (2097152 : ℝ) ≠ 0), Ideal.div_coe (by norm_num : (2097152 : ℝ) ≠ 0),
    EReal.neg_mul]

end Cert.PixelLoss

end
-- ==== Proof.RefValue.lean ====
/-
  The reference's result as the specification's loss.

  The reference takes log_softmax over the class axis, reads it at each pixel's label, totals the pixels, divides by
  their number 2²¹ and negates. Read one operation at a time, at a pixel (b, h, w) with label t, 0 ≤ t < 21:
  the maximum over the 21 logits of the fiber, taken again against −∞, is the fiber's maximum M; the sum from 0 of
  exp (x − M) is S; log_softmax at class k is (x_k − M) − log S. The label is not negative, so the wrapped index
  select(t < 0, t + 21, t) is t; the mask (t ≥ 0) ∧ (t ≤ 20), reduced by 'and' over a unit axis from 'true', is 1; the
  gather reads class min t 20 = t of the fiber, with the other three coordinates carried by the batching axes; the
  select on the mask keeps the gathered value. The total from 0 over the pixels, divided by 2²¹ and negated, is the loss.
-/
import proofs.«411214_j72851235275272_3_alg».proof.Proof.RefRead
import proofs.«411214_j72851235275272_3_alg».proof.Proof.PixelLoss
import Idealize.ShloMosaic.Lib.ValueIdx
import Idealize.ShloMosaic.PureOps.Ideal.Laws
import Idealize.ShloMosaic.PureOps.Reduce
import Idealize.ShloMosaic.Lib.ReduceAll
import Idealize.ShloMosaic.Lib.StableHlo.Predicate

noncomputable section

namespace Cert.ReferenceIdeal.RefValue

open Cert.ReferenceIdeal Cert.ReferenceIdeal.Gen Idealize.ShloMosaic Idealize.ShloMosaic.ValueIdx
open Cert.PixelLoss

/-- The class axis of the logits is reduced away: the shape fact that names the inserted coordinate. -/
theorem reduces_class : S8x21x512x512.Reduces [1] S8x512x512 := by decide

/-- The fiber of logits at pixel (b, h, w). -/
abbrev fiber (X : FVec Ideal S8x21x512x512 .f32) (b : Fin 8) (h w : Fin 512) : Fin 21 → EReal :=
  fun k => X (ix4 b k h w)

/-- The reduce-max over the class axis, at pixel (b, h, w), is the fold of max from −∞ over the fiber. -/
theorem reduceMax_apply (X : FVec Ideal S8x21x512x512 .f32) (b : Fin 8) (h w : Fin 512) :
    ReadP.val_main_call0_v0 (F := Ideal) X (ix3 b h w) = fiberMax (fiber X b h w) := by
  unfold ReadP.val_main_call0_v0
  rw [Host.reduce_eq_fold_single FloatOps.maximumf X _ reducesTo_S8x21x512x512_S8x512x512_d1 reduces_class h_S_]
  show (Finset.univ : Finset (Fin 21)).fold max negInf (fun k => X (reduces_class.lift (ix3 b h w) k)) = _
  unfold fiberMax
  refine congrArg (fun f => Finset.fold max negInf f Finset.univ) (funext fun k => congrArg X (funext fun a => ?_))
  match a with
  | ⟨0, _⟩ => rfl
  | ⟨1, _⟩ => rfl
  | ⟨2, _⟩ => rfl
  | ⟨3, _⟩ => rfl

/-- max(−∞, reduce-max) at pixel (b, h, w) is the fiber's maximum. -/
theorem max_apply (X : FVec Ideal S8x21x512x512 .f32) (b : Fin 8) (h w : Fin 512) :
    ReadP.val_main_call0_v2 (F := Ideal) X (ix3 b h w) = fiberMax (fiber X b h w) := by
  rw [ReadP.val_main_call0_v2_apply, ReadP.val_main_call0_v1_apply, ReadP.val_main_call0_cst_0_apply, reduceMax_apply]
  show max negInf (fiberMax (fiber X b h w)) = _
  exact max_eq_right ((Finset.le_fold_max negInf).mpr (Or.inl le_rfl))

/-- x − M at (b, k, h, w). -/
theorem shifted_apply (X : FVec Ideal S8x21x512x512 .f32) (b : Fin 8) (k : Fin 21) (h w : Fin 512) :
    ReadP.val_main_call0_v5 (F := Ideal) X (ix4 b k h w) = X (ix4 b k h w) - fiberMax (fiber X b h w) := by
  rw [ReadP.val_main_call0_v5_apply, ReadP.val_main_call0_v4_apply, ReadP.val_main_call0_v3_apply]
  have e : ReadP.idx_main_call0_v3 (ReadP.idx_main_call0_v4 (ix4 b k h w)) = ix3 b h w := by
    funext a
    match a with
    | ⟨0, _⟩ => rfl
    | ⟨1, _⟩ => rfl
    | ⟨2, _⟩ => rfl
  rw [e, max_apply]
  rfl

/-- The sum of exponentials at pixel (b, h, w). -/
theorem expSum_apply (X : FVec Ideal S8x21x512x512 .f32) (b : Fin 8) (h w : Fin 512) :
    ReadP.val_main_call0_v7 (F := Ideal) X (ix3 b h w) = fiberExpSum (fiber X b h w) := by
  rw [ReadP.val_main_call0_v7_apply, ReadP.val_main_call0_cst_1_apply]
  show Ideal.ofBits .f32 0x00000000#32 + _ = _
  rw [Ideal.ofBits_zero_f32, zero_add]
  unfold fiberExpSum
  refine Finset.sum_congr rfl fun k _ => ?_
  have e : ReadP.idx_main_call0_v7 (ix3 b h w) k = ix4 b k h w := by
    funext a
    match a with
    | ⟨0, _⟩ => rfl
    | ⟨1, _⟩ => rfl
    | ⟨2, _⟩ => rfl
    | ⟨3, _⟩ => rfl
  rw [e, ReadP.val_main_call0_v6_apply, shifted_apply]
  rfl

/-- log_softmax at (b, k, h, w): (x − M) − log S. -/
theorem logSoftmax_apply (X : FVec Ideal S8x21x512x512 .f32) (b : Fin 8) (k : Fin 21) (h w : Fin 512) :
    ReadP.val_main_v0 (F := Ideal) X (ix4 b k h w)
      = (X (ix4 b k h w) - fiberMax (fiber X b h w)) - Ideal.log (fiberExpSum (fiber X b h w)) := by
  rw [ReadP.val_main_v0_apply, shifted_apply, ReadP.val_main_call0_v10_apply, ReadP.val_main_call0_v9_apply,
    ReadP.val_main_call0_v8_apply]
  have e : ReadP.idx_main_call0_v8 (ReadP.idx_main_call0_v10 (ix4 b k h w)) = ix3 b h w := by
    funext a
    match a with
    | ⟨0, _⟩ => rfl
    | ⟨1, _⟩ => rfl
    | ⟨2, _⟩ => rfl
  rw [e, expSum_apply]
  rfl

/-- The label of pixel (b, h, w), broadcast to [8, 1, 512, 512]. -/
theorem label_apply (T : IVec S8x512x512 32) (b : Fin 8) (h w : Fin 512) :
    ReadP.val_main_v1 (F := Ideal) T (ix4 b 0 h w) = T (ix3 b h w) := by
  rw [ReadP.val_main_v1_apply]
  refine congrArg T (funext fun a => ?_)
  match a with
  | ⟨0, _⟩ => rfl
  | ⟨1, _⟩ => rfl
  | ⟨2, _⟩ => rfl

/-- A label in [0, 20] is not negative, so the wrapped index select(t < 0, t + 21, t) is t. -/
theorem wrapped_apply (T : IVec S8x512x512 32) (hT : ∀ j, (T j).toNat < 21) (b : Fin 8) (h w : Fin 512) :
    ReadP.val_main_call1_v4 (F := Ideal) T (ix4 b 0 h w) = T (ix3 b h w) := by
  rw [ReadP.val_main_call1_v4_apply, ReadP.val_main_call1_v1_apply, label_apply, ReadP.val_main_call1_v0_apply,
    ReadP.val_main_call1_c_apply]
  have ht := hT (ix3 b h w)
  have hn : ¬ IntOp.cmpi .slt (T (ix3 b h w)) 0#32 = 1#1 := by
    rw [StableHlo.Predicate.slt_iff_toNat (by omega) (by decide)]
    simp
  exact if_neg hn

/-- The start indices [8, 1, 512, 512, 1] hold the label at (b, 0, h, w, 0). -/
theorem startIdx_apply (T : IVec S8x512x512 32) (hT : ∀ j, (T j).toNat < 21) (b : Fin 8) (h w : Fin 512) :
    ReadP.val_main_call1_v5 (F := Ideal) T (ix5 b 0 h w 0) = T (ix3 b h w) := by
  rw [ReadP.val_main_call1_v5_apply]
  have e : ReadP.idx_main_call1_v5 (ix5 b 0 h w 0) = ix4 b 0 h w := by
    funext a
    have hb := b.isLt; have hh := h.isLt; have hw := w.isLt
    match a with
    | ⟨0, _⟩ => exact Fin.ext (by show ((((b.val * 1 + 0) * 512 + h.val) * 512 + w.val) * 1 + 0) / 262144 = b.val; omega)
    | ⟨1, _⟩ => rfl
    | ⟨2, _⟩ => exact Fin.ext (by show ((((b.val * 1 + 0) * 512 + h.val) * 512 + w.val) * 1 + 0) / 512 % 512 = h.val; omega)
    | ⟨3, _⟩ => exact Fin.ext (by show ((((b.val * 1 + 0) * 512 + h.val) * 512 + w.val) * 1 + 0) % 512 = w.val; omega)
  rw [e, wrapped_apply T hT]

/-- The in-range mask (t ≥ 0) ∧ (t ≤ 20) is 1 at (b, 0, h, w, 0). -/
theorem inRange_apply (T : IVec S8x512x512 32) (hT : ∀ j, (T j).toNat < 21) (b : Fin 8) (h w : Fin 512) :
    ReadP.val_main_call1_v11 (F := Ideal) T (ix5 b 0 h w 0) = 1#1 := by
  rw [ReadP.val_main_call1_v11_apply, ReadP.val_main_call1_v7_apply, ReadP.val_main_call1_v10_apply,
    startIdx_apply T hT, ReadP.val_main_call1_v6_apply, ReadP.val_main_call1_c_2_apply,
    ReadP.val_main_call1_v9_apply, ReadP.val_main_call1_v8_apply, ReadP.val_main_call1_c_1_apply]
  have ht := hT (ix3 b h w)
  rw [(StableHlo.Predicate.sge_iff_toNat (by omega) (by decide)).mpr (Nat.zero_le _),
    (StableHlo.Predicate.sle_iff_toNat (by omega) (by decide)).mpr (by show _ ≤ 20; omega)]
  rfl

/-- A fold of 'and' from 1 over words that are all 1 is 1. -/
theorem fold_andi_ones {ι : Type} (s : Finset ι) (f : ι → BitVec 1) (hf : ∀ k, f k = 1#1) :
    s.fold IntOp.andi 1#1 f = 1#1 := by
  classical
  induction s using Finset.induction_on with
  | empty => rfl
  | insert a s ha ih => rw [Finset.fold_insert ha, ih, hf]; rfl

theorem reduces_unit : S8x1x512x512x1.Reduces [4] S8x1x512x512 := by decide

/-- The mask reduced by 'and' over its unit axis from 'true' is 1 at (b, 0, h, w). -/
theorem mask_apply (T : IVec S8x512x512 32) (hT : ∀ j, (T j).toNat < 21) (b : Fin 8) (h w : Fin 512) :
    ReadP.val_main_call1_v12 (F := Ideal) T (ix4 b 0 h w) = 1#1 := by
  unfold ReadP.val_main_call1_v12
  rw [Host.reduce_eq_fold_single IntOp.andi _ _ reducesTo_S8x1x512x512x1_S8x1x512x512_d4 reduces_unit h_S_]
  refine fold_andi_ones _ _ fun k => ?_
  have e : reduces_unit.lift (ix4 b 0 h w) k = ix5 b 0 h w 0 := by
    funext a
    refine Fin.ext ?_
    match a with
    | ⟨0, _⟩ => rfl
    | ⟨1, _⟩ => rfl
    | ⟨2, _⟩ => rfl
    | ⟨3, _⟩ => rfl
    | ⟨4, _⟩ =>
      have hk : k.val < 1 := k.isLt
      show k.val = 0
      omega
  show ReadP.val_main_call1_v11 (F := Ideal) T (reduces_unit.lift (ix4 b 0 h w) k) = 1#1
  rw [e]
  exact inRange_apply T hT b h w

/-- The gather's dimension numbers: operand [8, 21, 512, 512], start indices [8, 1, 512, 512, 1], result [8, 1, 512, 512]. -/
abbrev gd : GatherDims S8x21x512x512 S8x1x512x512x1 S8x1x512x512 :=
  gather_S8x21x512x512_S8x1x512x512x1_S8x1x512x512_n_1_023_023_1_4_1111

/-- On a batching axis of the operand the gather reads the result index's batch coordinate. -/
theorem gather_coord_batch (idx : IVec S8x1x512x512x1 32) (j : S8x1x512x512.Idx) (a : Fin S8x21x512x512.rank)
    (ha : a ∈ gd.operandBatchingDims) :
    (gd.operandIdx j idx a).val = gd.batchCoord j a := by
  show gd.start j idx a + gd.batchCoord j a + gd.offCoord j a = _
  rw [gd.start_batching _ _ _ ha, gd.offCoord_eq_zero _ _ (fun hm => ((gd.mem_sKept _).mp hm).2 ha)]
  omega

/-- The operand index the gather reads for result index (b, 0, h, w): the class is the start index held at
    (b, 0, h, w, 0), read signed and clamped into [0, 20]; the other three coordinates are the batch coordinates. -/
theorem gather_operandIdx (idx : IVec S8x1x512x512x1 32) (b : Fin 8) (h w : Fin 512) :
    gd.operandIdx (ix4 b 0 h w) idx
      = ix4 b ⟨min (idx (ix5 b 0 h w 0)).toInt.toNat 20, by omega⟩ h w := by
  have m0 : (0 : Fin S8x21x512x512.rank) ∈ gd.operandBatchingDims := by decide
  have m2 : (2 : Fin S8x21x512x512.rank) ∈ gd.operandBatchingDims := by decide
  have m3 : (3 : Fin S8x21x512x512.rank) ∈ gd.operandBatchingDims := by decide
  have n1 : (1 : Fin S8x21x512x512.rank) ∉ gd.operandBatchingDims := by decide
  have c1 : (1 : Fin S8x21x512x512.rank) ∈ gd.collapsedSliceDims := by decide
  have s1 : (1 : Fin S8x21x512x512.rank) ∈ gd.startIndexMap := by decide
  have h0 : (gd.operandIdx (ix4 b 0 h w) idx 0).val = b.val := by
    rw [gather_coord_batch idx _ 0 m0]
    unfold GatherDims.batchCoord
    rw [dif_pos m0]
    rfl
  have h2 : (gd.operandIdx (ix4 b 0 h w) idx 2).val = h.val := by
    rw [gather_coord_batch idx _ 2 m2]
    unfold GatherDims.batchCoord
    rw [dif_pos m2]
    rfl
  have h3 : (gd.operandIdx (ix4 b 0 h w) idx 3).val = w.val := by
    rw [gather_coord_batch idx _ 3 m3]
    unfold GatherDims.batchCoord
    rw [dif_pos m3]
    rfl
  have h1 : (gd.operandIdx (ix4 b 0 h w) idx 1).val = min (idx (ix5 b 0 h w 0)).toInt.toNat 20 := by
    show gd.start (ix4 b 0 h w) idx 1 + gd.batchCoord (ix4 b 0 h w) 1 + gd.offCoord (ix4 b 0 h w) 1 = _
    rw [gd.batchCoord_eq_zero _ _ n1, gd.offCoord_eq_zero _ _ (fun hm => ((gd.mem_sKept _).mp hm).1 c1)]
    unfold GatherDims.start
    rw [dif_pos s1]
    have hsi : gd.siIdx (ix4 b 0 h w) ⟨List.idxOf (1 : Fin S8x21x512x512.rank) gd.startIndexMap,
        List.idxOf_lt_length_iff.2 s1⟩ = ix5 b 0 h w 0 := by
      funext c; refine Fin.ext ?_
      match c with
      | ⟨0, _⟩ => rfl
      | ⟨1, _⟩ => rfl
      | ⟨2, _⟩ => rfl
      | ⟨3, _⟩ => rfl
      | ⟨4, _⟩ => rfl
    rw [hsi]
    rfl
  funext a
  refine Fin.ext ?_
  match a with
  | ⟨0, _⟩ => exact h0
  | ⟨1, _⟩ => exact h1
  | ⟨2, _⟩ => exact h2
  | ⟨3, _⟩ => exact h3

/-- The gathered value at (b, 0, h, w) is log_softmax at the label's class. -/
theorem gathered_apply (X : FVec Ideal S8x21x512x512 .f32) (T : IVec S8x512x512 32) (hT : ∀ j, (T j).toNat < 21)
    (b : Fin 8) (h w : Fin 512) :
    ReadP.val_main_call1_v13 (F := Ideal) X T (ix4 b 0 h w)
      = ReadP.val_main_v0 (F := Ideal) X (ix4 b (labelClass (T (ix3 b h w))) h w) := by
  unfold ReadP.val_main_call1_v13 Host.gather
  show ReadP.val_main_v0 (F := Ideal) X (gd.operandIdx (ix4 b 0 h w) (ReadP.val_main_call1_v5 (F := Ideal) T)) = _
  rw [gather_operandIdx]
  refine congrArg _ ?_
  have ht := hT (ix3 b h w)
  have e : (ReadP.val_main_call1_v5 (F := Ideal) T (ix5 b 0 h w 0)).toInt.toNat = (T (ix3 b h w)).toNat := by
    rw [startIdx_apply T hT, StableHlo.Predicate.toInt_eq_toNat_of_lt (by omega)]
    exact Int.toNat_natCast _
  funext a
  match a with
  | ⟨0, _⟩ => rfl
  | ⟨1, _⟩ =>
    refine Fin.ext ?_
    show min (ReadP.val_main_call1_v5 (F := Ideal) T (ix5 b 0 h w 0)).toInt.toNat 20 = min (T (ix3 b h w)).toNat 20
    rw [e]
  | ⟨2, _⟩ => rfl
  | ⟨3, _⟩ => rfl

/-- The value at pixel (b, h, w) before the total: the label's log-probability, (x_t − M) − log S. -/
theorem pixel_apply (X : FVec Ideal S8x21x512x512 .f32) (T : IVec S8x512x512 32) (hT : ∀ j, (T j).toNat < 21)
    (b : Fin 8) (h w : Fin 512) :
    ReadP.val_main_v3 (F := Ideal) X T (ix3 b h w) = logProbR (fiber X b h w) (T (ix3 b h w)) := by
  rw [ReadP.val_main_v3_apply]
  have e : ReadP.idx_main_v3 (ix3 b h w) = ix4 b 0 h w := by
    funext a
    have hb := b.isLt; have hh := h.isLt; have hw := w.isLt
    match a with
    | ⟨0, _⟩ => exact Fin.ext (by show ((b.val * 512 + h.val) * 512 + w.val) / 262144 = b.val; omega)
    | ⟨1, _⟩ => rfl
    | ⟨2, _⟩ => exact Fin.ext (by show ((b.val * 512 + h.val) * 512 + w.val) / 512 % 512 = h.val; omega)
    | ⟨3, _⟩ => exact Fin.ext (by show ((b.val * 512 + h.val) * 512 + w.val) % 512 = w.val; omega)
  rw [e, ReadP.val_main_v2_apply, mask_apply T hT, select_one, gathered_apply X T hT, logSoftmax_apply]
  rfl

/-- THE REFERENCE'S RESULT: minus the mean over the pixels of the label's log-probability. -/
theorem result_value (X : FVec Ideal S8x21x512x512 .f32) (T : IVec S8x512x512 32) (hT : ∀ j, (T j).toNat < 21) :
    ReadP.val_main_v6 (F := Ideal) X T = fun _ => Cert.PixelLoss.lossR X T := by
  funext i
  rw [ReadP.val_main_v6_apply, ReadP.val_main_v5_apply, ReadP.val_main_v4_apply, ReadP.val_main_cst_apply,
    ReadP.val_main_cst_0_apply]
  show -(Ideal.div (Ideal.ofBits .f32 0x00000000#32 + ∑ j : S8x512x512.Idx, ReadP.val_main_v3 (F := Ideal) X T j)
    pixelCount) = _
  rw [Ideal.ofBits_zero_f32, zero_add]
  unfold lossR
  refine congrArg (fun s => -(Ideal.div s pixelCount)) (Finset.sum_congr rfl fun j _ => ?_)
  have hj : j = (ix3 (j 0) (j 1) (j 2) : S8x512x512.Idx) := by
    funext a
    match a with
    | ⟨0, _⟩ => rfl
    | ⟨1, _⟩ => rfl
    | ⟨2, _⟩ => rfl
  exact (congrArg (ReadP.val_main_v3 (F := Ideal) X T) hj).trans
    ((pixel_apply X T hT (j 0) (j 1) (j 2)).trans
      (congrArg (fun q => logProbR (fun k => X (ix4 (j 0) k (j 1) (j 2))) (T q)) hj.symm))

end Cert.ReferenceIdeal.RefValue

end
-- ==== Proof.TileValue.lean ====
/-
  What the kernel body leaves in its output tile, entry by entry.

  For a block of logits `x0` ([1, 21, 256, 512]) and labels `x1` ([1, 256, 512]) with every label word in [0, 20], the
  body's [1, 1, 8, 128] tile holds at [0, 0, r, c] the value `Cert.PixelLoss.tileEntry x0 x1 r c`: the total over the
  block's 256 × 512 pixels of `a t − (M + log S)` at [0, 0, 0, 0], zero elsewhere — with, at a pixel, `a` its fiber of
  21 logits, `t` its label, `M = max_k a k` and `S = Σ_k exp (a k − M)`.

  The body is read at an index one payload at a time: the clamped label is the label (`pay3_apply`); the maximum over
  the class axis is `fiberMax` and the sum of exponentials `fiberExpSum` (`max_apply`, `pay4_apply`); the 21
  selects `select (t == c) x[c] prev` from 0 pick `a t` (`sel_apply`, `slice_apply`, `chain_eq`); the reduction over
  both pixel axes is the sum over every pixel (`pay11_apply`); and the select on "row is 0 and column is 0" is the `if`
  on the two coordinates (`tile_apply`).
-/
import proofs.«411214_j72851235275272_3_alg».proof.Proof.Gen.KernelIdeal.Frame
import proofs.«411214_j72851235275272_3_alg».proof.Proof.PixelLoss
import Idealize.ShloMosaic.Lib.Pipeline.Value
import Idealize.ShloMosaic.Lib.ValueIdx
import Idealize.ShloMosaic.Lib.ValueLayout
import Idealize.ShloMosaic.Lib.Affine
import Idealize.ShloMosaic.PureOps.Ideal.Laws
import Mathlib.Tactic.IntervalCases

noncomputable section

namespace Cert.KernelIdeal.TileValue

open Cert.KernelIdeal Cert.KernelIdeal.Gen Idealize.ShloMosaic Idealize.ShloMosaic.ValueIdx
open Cert.PixelLoss

/-! ## The zero offsets -/

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-! ## Layout operations at an index -/

/-- The logits block without its unit axis reads, at (k, i, j), the block at (0, k, i, j). -/
theorem pay2_apply (x0 : Vec Ideal S1x21x256x512 .f32) (k : Fin 21) (i : Fin 256) (j : Fin 512) :
    k0_pay2 (F := Ideal) x0 (ix3 k i j) = x0 (ix4 0 k i j) :=
  shapeCast_1abc_abc_apply x0 _ k i j

/-- Class `o`'s plane of a [21, 256, 512] array, as a [256, 512] array, reads at (i, j) the array at (o, i, j). -/
theorem slice_apply (v1 : S21x256x512.Idx → EReal) (o : Nat) (hs : S21x256x512.Slices ![o, 0, 0] S1x256x512)
    (hc : S1x256x512.ShapeCasts S256x512) (i : Fin 256) (j : Fin 512) :
    shapeCast S256x512 (extractStridedSlice S1x256x512 ![o, 0, 0] v1 hs) hc (ix2 i j)
      = v1 (ix3 (⟨o, Nat.lt_of_succ_le (hs.2 0)⟩ : Fin 21) i j) := by
  refine (shapeCast_1ab_ab_apply _ hc i j).trans ?_
  refine extractStridedSlice_apply _ v1 hs _ _ fun ax => ?_
  match ax with
  | ⟨0, _⟩ => rfl
  | ⟨1, _⟩ => exact (Nat.zero_add _).symm
  | ⟨2, _⟩ => exact (Nat.zero_add _).symm

/-- A select on "the word equals `w`" is the `if` on that equality. -/
theorem sel_apply {α : Type} (v7 : IVec S256x512 32) (w : BitVec 32) (A B : S256x512.Idx → α) (p : S256x512.Idx) :
    select (cmpi .eq v7 (broadcast S256x512 w)) A B p = if v7 p = w then A p else B p := by
  show Scalar.select (IntOp.cmpi .eq (v7 p) w) (A p) (B p) = _
  unfold Scalar.select
  exact if_congr IntOp.cmpi_eq rfl rfl

/-- The index (i, j) with class `k` inserted on the reduced axis is (k, i, j). -/
theorem lift_eq (i : Fin 256) (j : Fin 512) (k : Fin 21) :
    reduces_S21x256x512_S256x512.lift (ix2 i j) k = ix3 k i j := by
  funext a
  match a with
  | ⟨0, _⟩ => rfl
  | ⟨1, _⟩ => rfl
  | ⟨2, _⟩ => rfl

/-- A [256, 512] array broadcast over the 21 classes reads, at (k, i, j), the array at (i, j). -/
theorem bcast_apply (v : S256x512.Idx → EReal) (hc : S256x512.ShapeCasts S1x256x512) (hb : S1x256x512.Broadcasts S21x256x512)
    (k : Fin 21) (i : Fin 256) (j : Fin 512) :
    broadcastTo S21x256x512 (shapeCast S1x256x512 v hc) hb (ix3 k i j) = v (ix2 i j) := by
  refine (broadcastTo_apply _ hb (ix3 k i j) (ix3 (0 : Fin 1) i j) fun ax => ?_).trans (shapeCast_ab_1ab_apply v hc 0 i j)
  match ax with
  | ⟨0, _⟩ => rfl
  | ⟨1, _⟩ => rfl
  | ⟨2, _⟩ => rfl

theorem log_apply {s : Shape} (v : FVec Ideal s .f32) (p : s.Idx) : log v p = Ideal.log (v p) := rfl
theorem exp_apply {s : Shape} (v : FVec Ideal s .f32) (p : s.Idx) : exp v p = Ideal.exp (v p) := rfl

/-- The 8 × 128 tile as a [1, 1, 8, 128] block reads, at (0, 0, r, c), the tile at (r, c). -/
theorem pay1_apply (v : FVec Ideal S8x128 .f32) (r : Fin 8) (c : Fin 128) :
    k0_pay1 (F := Ideal) v (ix4 0 0 r c) = v (ix2 r c) := by
  show shapeCast S1x1x8x128 v shapeCasts_S8x128_S1x1x8x128 (ix4 0 0 r c) = _
  exact shapeCast_apply v _ _ _ (by
    rw [Shape.rowMajor_val_two, Shape.rowMajor_val_four]
    show r.val * 128 + c.val = ((0 * 1 + 0) * 8 + r.val) * 128 + c.val
    omega)

/-! ## The label -/

/-- Clamping to [0, 20] (signed) is the identity on a word in [0, 20]. -/
theorem clamp_eq (t : BitVec 32) (ht : t.toNat < 21) : IntOp.minsi 20#32 (IntOp.maxsi 0#32 t) = t := by
  obtain ⟨n, hn, rfl⟩ : ∃ n, n < 21 ∧ t = BitVec.ofNat 32 n := ⟨t.toNat, ht, by simp⟩
  clear ht
  interval_cases n <;> decide

/-- The clamped label at pixel (i, j) is the label there, when that is in [0, 20]. -/
theorem pay3_apply (x1 : Vec Ideal S1x256x512 .i32) (i : Fin 256) (j : Fin 512) (ht : (x1 (ix3 0 i j)).toNat < 21) :
    k0_pay3 (F := Ideal) x1 (ix2 i j) = x1 (ix3 0 i j) := by
  show IntOp.minsi 20#32 (IntOp.maxsi 0#32 (shapeCast S256x512 x1 shapeCasts_S1x256x512_S256x512 (ix2 i j))) = _
  rw [shapeCast_1ab_ab_apply]
  exact clamp_eq _ ht

/-- A word `n` in [0, 20] is class `n`. -/
theorem labelClass_ofNat (n : Nat) (hn : n < 21) : labelClass (BitVec.ofNat 32 n) = ⟨n, hn⟩ := by
  apply Fin.ext
  show min (BitVec.ofNat 32 n).toNat 20 = n
  rw [BitVec.toNat_ofNat, Nat.mod_eq_of_lt (by omega)]
  omega

/-- The 21 selects over a fiber `a`, from 0: for a label word `t` in [0, 20] they pick `a t`. -/
theorem chain_eq (a : Fin 21 → EReal) (t : BitVec 32) (ht : t.toNat < 21) :
    (if t = 20#32 then a ⟨20, by decide⟩ else (if t = 19#32 then a ⟨19, by decide⟩ else (if t = 18#32 then a ⟨18, by decide⟩ else (if t = 17#32 then a ⟨17, by decide⟩ else (if t = 16#32 then a ⟨16, by decide⟩ else (if t = 15#32 then a ⟨15, by decide⟩ else (if t = 14#32 then a ⟨14, by decide⟩ else (if t = 13#32 then a ⟨13, by decide⟩ else (if t = 12#32 then a ⟨12, by decide⟩ else (if t = 11#32 then a ⟨11, by decide⟩ else (if t = 10#32 then a ⟨10, by decide⟩ else (if t = 9#32 then a ⟨9, by decide⟩ else (if t = 8#32 then a ⟨8, by decide⟩ else (if t = 7#32 then a ⟨7, by decide⟩ else (if t = 6#32 then a ⟨6, by decide⟩ else (if t = 5#32 then a ⟨5, by decide⟩ else (if t = 4#32 then a ⟨4, by decide⟩ else (if t = 3#32 then a ⟨3, by decide⟩ else (if t = 2#32 then a ⟨2, by decide⟩ else (if t = 1#32 then a ⟨1, by decide⟩ else (if t = 0#32 then a ⟨0, by decide⟩ else (0 : EReal)))))))))))))))))))))) = a (labelClass t) := by
  obtain ⟨n, hn, rfl⟩ : ∃ n, n < 21 ∧ t = BitVec.ofNat 32 n := ⟨t.toNat, ht, by simp⟩
  clear ht
  rw [labelClass_ofNat n hn]
  interval_cases n <;> simp

/-! ## The maximum and the log-sum-exp of a pixel's fiber -/

/-- The maximum over the class axis from −∞, at pixel (i, j), is the largest logit of the pixel's fiber. -/
theorem max_apply (x0 : Vec Ideal S1x21x256x512 .f32) (hφ : FKind.Formats .f32)
    (hacc : (0xFF800000#32 : BitVec 32) = FKind.maximumf.neutral .f32 hφ) (i : Fin 256) (j : Fin 512) :
    multiReduction .maximumf [0] S256x512 (k0_pay2 (F := Ideal) x0) 0xFF800000#32 reduces_S21x256x512_S256x512 hφ hacc (ix2 i j)
      = fiberMax (fun k => x0 (ix4 0 k i j)) := by
  rw [Ideal.multiReduction_maximumf_single]
  show (Finset.univ : Finset (Fin 21)).fold max negInf _ = _
  unfold fiberMax
  congr 1
  funext k
  exact (congrArg (k0_pay2 (F := Ideal) x0) (lift_eq i j k)).trans (pay2_apply x0 k i j)

/-- `M + log S` at pixel (i, j), for the pixel's fiber `a`: `M = max_k a k`, `S = Σ_k exp (a k − M)`. -/
theorem pay4_apply (x0 : Vec Ideal S1x21x256x512 .f32) (i : Fin 256) (j : Fin 512) :
    k0_pay4 (F := Ideal) x0 (ix2 i j)
      = fiberMax (fun k => x0 (ix4 0 k i j)) + Ideal.log (fiberExpSum (fun k => x0 (ix4 0 k i j))) := by
  simp only [k0_pay4]
  rw [addf_apply, log_apply]
  refine congrArg₂ (· + ·) (max_apply x0 _ _ i j) (congrArg Ideal.log ?_)
  refine (Ideal.multiReduction_add_single _ _ _ _ _ _).trans ?_
  unfold fiberExpSum
  refine Finset.sum_congr rfl fun (k : Fin 21) _ => ?_
  have e := lift_eq i j k
  rw [e, exp_apply, subf_apply, pay2_apply, bcast_apply]
  exact congrArg (fun m => Ideal.exp (x0 (ix4 0 k i j) - m)) (max_apply x0 _ _ i j)

/-! ## The tile -/

/-- The word of a number below 2³² equals the zero word exactly when the number is zero. -/
theorem ofNat_eq_zero_iff (n : Nat) (hn : n < 2 ^ 32) : IntOp.cmpi .eq (BitVec.ofNat 32 n) 0#32 = 1#1 ↔ n = 0 := by
  rw [IntOp.cmpi_eq]
  constructor
  · intro h
    have h' := congrArg BitVec.toNat h
    rw [BitVec.toNat_ofNat, Nat.mod_eq_of_lt hn] at h'
    exact h'
  · rintro rfl; rfl

/-- The conjunction of two bits is 1 exactly when both are. -/
theorem andi_one (a b : BitVec 1) : IntOp.andi a b = 1#1 ↔ a = 1#1 ∧ b = 1#1 := by
  rcases BitVec.eq_zero_or_eq_one a with rfl | rfl <;> rcases BitVec.eq_zero_or_eq_one b with rfl | rfl <;> decide

/-- The select on "row is 0 and column is 0" over an 8 × 128 tile is the `if` on the two coordinates. -/
theorem tile_apply (h0 : S8x128.Iotas .tc 32 [0]) (h1 : S8x128.Iotas .tc 32 [1]) (tot z : EReal) (r : Fin 8) (c : Fin 128) :
    select (andi (cmpi .eq (iota .tc S8x128 32 [0] h0) (broadcast S8x128 0#32)) (cmpi .eq (iota .tc S8x128 32 [1] h1) (broadcast S8x128 0#32)))
      (broadcast S8x128 tot) (broadcast S8x128 z) (ix2 r c) = if r.val = 0 ∧ c.val = 0 then tot else z := by
  show Scalar.select (IntOp.andi (IntOp.cmpi .eq (iota .tc S8x128 32 [0] h0 (ix2 r c)) 0#32)
      (IntOp.cmpi .eq (iota .tc S8x128 32 [1] h1 (ix2 r c)) 0#32)) tot z = _
  rw [iota_single_apply, iota_single_apply]
  unfold Scalar.select
  refine if_congr ?_ rfl rfl
  refine (andi_one _ _).trans ?_
  exact and_congr (ofNat_eq_zero_iff r.val (by have := r.isLt; omega)) (ofNat_eq_zero_iff c.val (by have := c.isLt; omega))

/-- The one entry of a [1] array whose every entry is `T`, read through [1, 1, 1], is `T`. -/
theorem extract_total (v : S1.Idx → EReal) (T : EReal) (hv : ∀ j, v j = T) (hc : S1.ShapeCasts S1x1x1)
    (hp : ∀ a, (![0, 0, 0] : Fin 3 → Nat) a < S1x1x1.size a) : extractAt ![0, 0, 0] (shapeCast S1x1x1 v hc) hp = T := by
  unfold extractAt shapeCast
  exact hv _

/-- The selects of classes 15 to 20 over an earlier pick `base`, at pixel (i, j). -/
abbrev top (v1 : S21x256x512.Idx → EReal) (v7 : S256x512.Idx → BitVec 32) (base : S256x512.Idx → EReal)
    (i : Fin 256) (j : Fin 512) : EReal :=
  (if v7 (ix2 i j) = 20#32 then v1 (ix3 (⟨20, by decide⟩ : Fin 21) i j) else (if v7 (ix2 i j) = 19#32 then v1 (ix3 (⟨19, by decide⟩ : Fin 21) i j) else (if v7 (ix2 i j) = 18#32 then v1 (ix3 (⟨18, by decide⟩ : Fin 21) i j) else (if v7 (ix2 i j) = 17#32 then v1 (ix3 (⟨17, by decide⟩ : Fin 21) i j) else (if v7 (ix2 i j) = 16#32 then v1 (ix3 (⟨16, by decide⟩ : Fin 21) i j) else (if v7 (ix2 i j) = 15#32 then v1 (ix3 (⟨15, by decide⟩ : Fin 21) i j) else base (ix2 i j)))))))

/-- The tile at (r, c): at (0, 0) the total over the pixels of the picked logit minus `v15`, zero elsewhere. -/
theorem pay11_apply (v1 : FVec Ideal S21x256x512 .f32) (v7 : IVec S256x512 32) (v15 v86 : FVec Ideal S256x512 .f32)
    (v88 : IVec S256x512 1) (v90 : FVec Ideal S256x512 .f32) (r : Fin 8) (c : Fin 128) :
    k0_pay11 (F := Ideal) v1 v7 v15 v86 v88 v90 (ix2 r c)
      = if r.val = 0 ∧ c.val = 0 then
          ∑ q : S1x256x512.Idx, (top v1 v7 (select v88 v90 v86) (q 1) (q 2) - v15 (ix2 (q 1) (q 2)))
        else 0 := by
  simp only [k0_pay11]
  rw [tile_apply]
  refine if_congr Iff.rfl ?_ ?_
  · refine extract_total _ _ (fun jj => ?_) _ _
    refine (Ideal.multiReduction_add_total _ _ _ (by decide) _ _ _).trans ?_
    refine Finset.sum_congr rfl fun q _ => ?_
    obtain ⟨u, i, j, rfl⟩ : ∃ u i j, q = ix3 u i j := ⟨q 0, q 1, q 2, eq_ix3 q⟩
    rw [shapeCast_ab_1ab_apply, subf_apply]
    show _ - v15 (ix2 i j) = top v1 v7 (select v88 v90 v86) i j - v15 (ix2 i j)
    congr 1
    simp only [sel_apply, slice_apply]
  · exact Ideal.ofBits_zero_f32

/-- The selects of classes 0 to 14, from 0, at pixel (i, j). -/
theorem picked_apply (x0 : Vec Ideal S1x21x256x512 .f32) (x1 : Vec Ideal S1x256x512 .i32) (i : Fin 256) (j : Fin 512) :
    select (k0_pay9 (k0_pay3 (F := Ideal) x1)) (k0_pay10 (k0_pay2 (F := Ideal) x0))
        (k0_pay8 (k0_pay2 (F := Ideal) x0) (k0_pay3 (F := Ideal) x1) (k0_pay5 (F := Ideal) x0 x1) (k0_pay6 (F := Ideal) x1) (k0_pay7 (F := Ideal) x0)) (ix2 i j)
      = (if k0_pay3 (F := Ideal) x1 (ix2 i j) = 14#32 then k0_pay2 (F := Ideal) x0 (ix3 (⟨14, by decide⟩ : Fin 21) i j) else (if k0_pay3 (F := Ideal) x1 (ix2 i j) = 13#32 then k0_pay2 (F := Ideal) x0 (ix3 (⟨13, by decide⟩ : Fin 21) i j) else (if k0_pay3 (F := Ideal) x1 (ix2 i j) = 12#32 then k0_pay2 (F := Ideal) x0 (ix3 (⟨12, by decide⟩ : Fin 21) i j) else (if k0_pay3 (F := Ideal) x1 (ix2 i j) = 11#32 then k0_pay2 (F := Ideal) x0 (ix3 (⟨11, by decide⟩ : Fin 21) i j) else (if k0_pay3 (F := Ideal) x1 (ix2 i j) = 10#32 then k0_pay2 (F := Ideal) x0 (ix3 (⟨10, by decide⟩ : Fin 21) i j) else (if k0_pay3 (F := Ideal) x1 (ix2 i j) = 9#32 then k0_pay2 (F := Ideal) x0 (ix3 (⟨9, by decide⟩ : Fin 21) i j) else (if k0_pay3 (F := Ideal) x1 (ix2 i j) = 8#32 then k0_pay2 (F := Ideal) x0 (ix3 (⟨8, by decide⟩ : Fin 21) i j) else (if k0_pay3 (F := Ideal) x1 (ix2 i j) = 7#32 then k0_pay2 (F := Ideal) x0 (ix3 (⟨7, by decide⟩ : Fin 21) i j) else (if k0_pay3 (F := Ideal) x1 (ix2 i j) = 6#32 then k0_pay2 (F := Ideal) x0 (ix3 (⟨6, by decide⟩ : Fin 21) i j) else (if k0_pay3 (F := Ideal) x1 (ix2 i j) = 5#32 then k0_pay2 (F := Ideal) x0 (ix3 (⟨5, by decide⟩ : Fin 21) i j) else (if k0_pay3 (F := Ideal) x1 (ix2 i j) = 4#32 then k0_pay2 (F := Ideal) x0 (ix3 (⟨4, by decide⟩ : Fin 21) i j) else (if k0_pay3 (F := Ideal) x1 (ix2 i j) = 3#32 then k0_pay2 (F := Ideal) x0 (ix3 (⟨3, by decide⟩ : Fin 21) i j) else (if k0_pay3 (F := Ideal) x1 (ix2 i j) = 2#32 then k0_pay2 (F := Ideal) x0 (ix3 (⟨2, by decide⟩ : Fin 21) i j) else (if k0_pay3 (F := Ideal) x1 (ix2 i j) = 1#32 then k0_pay2 (F := Ideal) x0 (ix3 (⟨1, by decide⟩ : Fin 21) i j) else (if k0_pay3 (F := Ideal) x1 (ix2 i j) = 0#32 then k0_pay2 (F := Ideal) x0 (ix3 (⟨0, by decide⟩ : Fin 21) i j) else (0 : EReal)))))))))))))))) := by
  simp only [k0_pay9, k0_pay10, k0_pay8, k0_pay5, k0_pay6, k0_pay7, sel_apply, slice_apply, broadcast_apply,
    Ideal.ofBits_def, Ideal.ofBits_zero_f32]

/-! ## The tile's entries -/

/-- The output tile after the body, at [0, 0, r, c], is `tileEntry` of the two blocks, every label being in [0, 20]. -/
theorem out_entry (x0 : Vec Ideal S1x21x256x512 .f32) (x1 : Vec Ideal S1x256x512 .i32) (hx1 : ∀ q, (x1 q).toNat < 21)
    (r : Fin 8) (c : Fin 128) :
    Gen.out0_2 (F := Ideal) x0 x1 (ix4 0 0 r c) = Cert.PixelLoss.tileEntry x0 x1 r c := by
  unfold Gen.out0_2
  rw [View.canon_unit_zero hz4]
  simp only [View.ld_unit_zero (S := S1x21x256x512) hz4, View.ld_unit_zero (S := S1x256x512) hz3]
  rw [pay1_apply, pay11_apply]
  unfold tileEntry
  refine if_congr Iff.rfl ?_ rfl
  refine Finset.sum_congr rfl fun q _ => ?_
  obtain ⟨u, i, j, rfl⟩ : ∃ u i j, q = ix3 u i j := ⟨q 0, q 1, q 2, eq_ix3 q⟩
  obtain rfl : u = 0 := Subsingleton.elim _ _
  show top (k0_pay2 (F := Ideal) x0) (k0_pay3 (F := Ideal) x1) _ i j - k0_pay4 (F := Ideal) x0 (ix2 i j)
    = logProbK (fun k => x0 (ix4 0 k i j)) (x1 (ix3 0 i j))
  rw [pay4_apply]
  unfold logProbK
  refine congrArg₂ (· - ·) ?_ rfl
  unfold top
  rw [picked_apply, pay3_apply x1 i j (hx1 _)]
  simp only [pay2_apply]
  exact chain_eq (fun k => x0 (ix4 0 k i j)) (x1 (ix3 0 i j)) (hx1 _)

end Cert.KernelIdeal.TileValue

end
-- ==== Proof.KernelValue.lean ====
/-
  The kernel's result as a function of its two arguments.

  Grid point t = (b, hb) stages the logits block X[b, :, 256·hb … 256·hb + 255, :] and the labels block
  T[b, 256·hb …, :], and writes back tile (b, hb) of the [8, 2, 8, 128] array of partial totals: the block's total
  log-probability at entry [0, 0] of the tile, zeros elsewhere (`tileEntry`). The sixteen tiles are disjoint and
  fill the array, so after the region the array is `tiles` of the arguments; the host then adds up every entry,
  negates, and divides by the number of pixels: `lossK`.
-/
import proofs.«411214_j72851235275272_3_alg».proof.Proof.Gen.KernelIdeal.Frame
import proofs.«411214_j72851235275272_3_alg».proof.Proof.PixelLoss
import Idealize.ShloMosaic.Lib.Pipeline.Value
import Idealize.ShloMosaic.Lib.ValueIdx
import Idealize.ShloMosaic.PureOps.Ideal.Laws
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.PixelLoss

/-- Rows 256·hb … 256·hb + 255 of image b's logits, as a [1, 21, 256, 512] block. -/
def blockLogits (Xa : S8x21x512x512.Idx → EReal) (b : Fin 8) (hb : Fin 2) : S1x21x256x512.Idx → EReal :=
  fun y => Xa (ix4 b (⟨(y 1).val, (y 1).isLt⟩ : Fin 21)
    (⟨hb.val * 256 + (y 2).val, by have h2 : (y 2).val < 256 := (y 2).isLt; have := hb.isLt; omega⟩ : Fin 512)
    (⟨(y 3).val, (y 3).isLt⟩ : Fin 512))

/-- The same rows of image b's labels, as a [1, 256, 512] block. -/
def blockLabels (Ta : S8x512x512.Idx → BitVec 32) (b : Fin 8) (hb : Fin 2) : S1x256x512.Idx → BitVec 32 :=
  fun y => Ta (ix3 b
    (⟨hb.val * 256 + (y 1).val, by have h1 : (y 1).val < 256 := (y 1).isLt; have := hb.isLt; omega⟩ : Fin 512)
    (⟨(y 2).val, (y 2).isLt⟩ : Fin 512))

/-- The array of partial totals: entry [b, hb, r, c] is entry [r, c] of block (b, hb)'s tile. -/
def tiles (Xa : S8x21x512x512.Idx → EReal) (Ta : S8x512x512.Idx → BitVec 32) : S8x2x8x128.Idx → EReal :=
  fun p => tileEntry (blockLogits Xa ⟨(p 0).val, (p 0).isLt⟩ ⟨(p 1).val, (p 1).isLt⟩)
    (blockLabels Ta ⟨(p 0).val, (p 0).isLt⟩ ⟨(p 1).val, (p 1).isLt⟩) ⟨(p 2).val, (p 2).isLt⟩ ⟨(p 3).val, (p 3).isLt⟩

/-- The kernel's loss: every entry of every tile added up, negated, divided by the pixel count. -/
def lossK (Xa : S8x21x512x512.Idx → EReal) (Ta : S8x512x512.Idx → BitVec 32) : EReal :=
  Ideal.div (-(∑ p : S8x2x8x128.Idx, tiles Xa Ta p)) pixelCount

variable (m : (ℓ : Loc nD τ sig) → Buf (Elt Ideal) ℓ) (ρ : Dev nD → PrngReg)

/-- The logits and the labels as the region finds them. -/
abbrev logits (c : Dev nD) : S8x21x512x512.Idx → EReal := m ((c : Thread nD τ).loc main_arg0)
abbrev labels (c : Dev nD) : S8x512x512.Idx → BitVec 32 := m ((c : Thread nD τ).loc main_arg1)

/-- The printed index maps, decided over the sixteen points: the two input windows move with the output window —
    image b on axis 0, row block hb on the row axis — and the output's block indices are (b, hb, 0, 0). -/
theorem idx_facts : ∀ t : Fin cfg0.N,
    win0_0.index t (0 : Fin 4) = win0_2.index t (0 : Fin 4) ∧ win0_0.index t (1 : Fin 4) = 0
    ∧ win0_0.index t (2 : Fin 4) = win0_2.index t (1 : Fin 4) ∧ win0_0.index t (3 : Fin 4) = 0
    ∧ win0_1.index t (0 : Fin 3) = win0_2.index t (0 : Fin 4) ∧ win0_1.index t (1 : Fin 3) = win0_2.index t (1 : Fin 4)
    ∧ win0_1.index t (2 : Fin 3) = 0
    ∧ win0_2.index t (2 : Fin 4) = 0 ∧ win0_2.index t (3 : Fin 4) = 0
    ∧ win0_2.index t (0 : Fin 4) < 8 ∧ win0_2.index t (1 : Fin 4) < 2 :=
  (by decide +kernel : ∀ t : Fin grid0.N, _)

/-- Every tile is some point's. -/
theorem idx_onto : ∀ (b : Fin 8) (hb : Fin 2), ∃ t : Fin cfg0.N, win0_2.index t = ![b.val, hb.val, 0, 0] :=
  (by decide +kernel : ∀ (b : Fin 8) (hb : Fin 2), ∃ t : Fin grid0.N, win0_2.index t = ![b.val, hb.val, 0, 0])

/-- The image and the row block of a grid point. -/
def ptB (t : Fin cfg0.N) : Fin 8 := ⟨win0_2.index t (0 : Fin 4), (idx_facts t).2.2.2.2.2.2.2.2.2.1⟩
def ptH (t : Fin cfg0.N) : Fin 2 := ⟨win0_2.index t (1 : Fin 4), (idx_facts t).2.2.2.2.2.2.2.2.2.2⟩

/-- The logits window's block at point t is the logits block of (b, hb). -/
theorem iblk0_eq (c : Dev nD) (t : Fin cfg0.N) :
    (iblk m c 0 t : S1x21x256x512.Idx → EReal) = blockLogits (logits m c) (ptB t) (ptH t) := by
  obtain ⟨e0, e1, e2, e3, -⟩ := idx_facts t
  funext y
  unfold iblk
  rw [View.read_apply]
  show (m ((c : Thread nD τ).loc main_arg0) : S8x21x512x512.Idx → EReal) (((cfg0.win 0).blk t).view.emb y) = _
  unfold blockLogits
  congr 1
  funext a
  apply Fin.ext
  match a with
  | ⟨0, _⟩ => show win0_0.index t (0 : Fin 4) * 1 + 1 * (y 0).val = win0_2.index t (0 : Fin 4); have h0 : (y 0).val < 1 := (y 0).isLt; omega
  | ⟨1, _⟩ => show win0_0.index t (1 : Fin 4) * 21 + 1 * (y 1).val = (y 1).val; omega
  | ⟨2, _⟩ => show win0_0.index t (2 : Fin 4) * 256 + 1 * (y 2).val = win0_2.index t (1 : Fin 4) * 256 + (y 2).val; omega
  | ⟨3, _⟩ => show win0_0.index t (3 : Fin 4) * 512 + 1 * (y 3).val = (y 3).val; omega

/-- The labels window's block at point t is the labels block of (b, hb). -/
theorem iblk1_eq (c : Dev nD) (t : Fin cfg0.N) :
    (iblk m c 1 t : S1x256x512.Idx → BitVec 32) = blockLabels (labels m c) (ptB t) (ptH t) := by
  obtain ⟨-, -, -, -, e4, e5, e6, -⟩ := idx_facts t
  funext y
  unfold iblk
  rw [View.read_apply]
  show (m ((c : Thread nD τ).loc main_arg1) : S8x512x512.Idx → BitVec 32) (((cfg0.win 1).blk t).view.emb y) = _
  unfold blockLabels
  congr 1
  funext a
  apply Fin.ext
  match a with
  | ⟨0, _⟩ => show win0_1.index t (0 : Fin 3) * 1 + 1 * (y 0).val = win0_2.index t (0 : Fin 4); have h0 : (y 0).val < 1 := (y 0).isLt; omega
  | ⟨1, _⟩ => show win0_1.index t (1 : Fin 3) * 256 + 1 * (y 1).val = win0_2.index t (1 : Fin 4) * 256 + (y 1).val; omega
  | ⟨2, _⟩ => show win0_1.index t (2 : Fin 3) * 512 + 1 * (y 2).val = (y 2).val; omega

/-- The output window's block at point t sits at (b, hb, ·, ·) of the array. -/
theorem emb2_eq (t : Fin cfg0.N) (y : S1x1x8x128.Idx) :
    ((cfg0.win 2).blk t).view.emb y
      = (ix4 (ptB t) (ptH t) (⟨(y 2).val, (y 2).isLt⟩ : Fin 8) (⟨(y 3).val, (y 3).isLt⟩ : Fin 128) : S8x2x8x128.Idx) := by
  obtain ⟨-, -, -, -, -, -, -, e7, e8, -, -⟩ := idx_facts t
  funext a
  apply Fin.ext
  match a with
  | ⟨0, _⟩ => show win0_2.index t (0 : Fin 4) * 1 + 1 * (y 0).val = win0_2.index t (0 : Fin 4); have h0 : (y 0).val < 1 := (y 0).isLt; omega
  | ⟨1, _⟩ => show win0_2.index t (1 : Fin 4) * 1 + 1 * (y 1).val = win0_2.index t (1 : Fin 4); have h1 : (y 1).val < 1 := (y 1).isLt; omega
  | ⟨2, _⟩ => show win0_2.index t (2 : Fin 4) * 8 + 1 * (y 2).val = (y 2).val; omega
  | ⟨3, _⟩ => show win0_2.index t (3 : Fin 4) * 128 + 1 * (y 3).val = (y 3).val; omega

/-- What the body leaves in the output tile, entry by entry (proved over the body's payloads elsewhere; taken here
    as a hypothesis so that this module stands on the frame alone). -/
abbrev TileFact : Prop :=
  ∀ (x0 : Vec Ideal S1x21x256x512 .f32) (x1 : Vec Ideal S1x256x512 .i32), (∀ q, (x1 q).toNat < 21) →
    ∀ (r : Fin 8) (c : Fin 128), out0_2 (F := Ideal) x0 x1 (ix4 0 0 r c) = tileEntry x0 x1 r c

/-- WHAT POINT t WRITES BACK is block t of `tiles` of the two arguments. -/
theorem flushed_eq (hK : TileFact) (c : Dev nD) (hT : ∀ j, (labels m c j).toNat < 21) (t : Fin cfg0.N) :
    (dats m 0 c).flushed 2 t = ((cfg0.win 2).blk t).view.read (Elt Ideal) (tiles (logits m c) (labels m c)) := by
  show (cfg0.win 2).cut (grid0.coords t) ((dats m 0 c).after 2 t) = _
  rw [after0_2]
  funext y
  show out0_2 (F := Ideal) (iblk m c 0 t) (iblk m c 1 t) y = tiles (logits m c) (labels m c) (((cfg0.win 2).blk t).view.emb y)
  have hy : (y : S1x1x8x128.Idx) = ix4 (0 : Fin 1) (0 : Fin 1) (⟨(y 2).val, (y 2).isLt⟩ : Fin 8) (⟨(y 3).val, (y 3).isLt⟩ : Fin 128) := by
    funext a
    apply Fin.ext
    match a with
    | ⟨0, _⟩ => show (y 0).val = 0; have h0 : (y 0).val < 1 := (y 0).isLt; omega
    | ⟨1, _⟩ => show (y 1).val = 0; have h1 : (y 1).val < 1 := (y 1).isLt; omega
    | ⟨2, _⟩ => rfl
    | ⟨3, _⟩ => rfl
  have hl : ∀ q, ((iblk m c 1 t : S1x256x512.Idx → BitVec 32) q).toNat < 21 := fun q => by
    rw [iblk1_eq]; exact hT _
  rw [emb2_eq]
  refine (congrArg (out0_2 (F := Ideal) (iblk m c 0 t) (iblk m c 1 t)) hy).trans ?_
  rw [hK (iblk m c 0 t) (iblk m c 1 t) hl, iblk0_eq, iblk1_eq]
  rfl

/-- An index of the array is in point t's block iff each coordinate is in the block's range on its axis. -/
theorem mem_blk (t : Fin cfg0.N) (i : S8x2x8x128.Idx) :
    i ∈ ((cfg0.win 2).blk t).view.set ↔ ∀ a : Fin 4, win0_2.index t a * S1x1x8x128.size a ≤ (i a).val
      ∧ (i a).val < win0_2.index t a * S1x1x8x128.size a + S1x1x8x128.size a := by
  show i ∈ ((View.whole main_v0).slice (win0_2.rect t)).set ↔ _
  rw [View.set_slice_whole, Rect.mem_set_unit]
  exact Iff.rfl

/-- The sixteen tiles fill the array. -/
theorem cover (i : S8x2x8x128.Idx) :
    ∃ t : Fin cfg0.N, (cfg0.win 2).flush t = true ∧ i ∈ ((cfg0.win 2).blk t).view.set := by
  obtain ⟨t, ht⟩ := idx_onto ⟨(i 0).val, (i 0).isLt⟩ ⟨(i 1).val, (i 1).isLt⟩
  have q0 : win0_2.index t (0 : Fin 4) = (i 0).val := congrFun ht 0
  have q1 : win0_2.index t (1 : Fin 4) = (i 1).val := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 1 ≤ (i 1).val ∧ (i 1).val < win0_2.index t (1 : Fin 4) * 1 + 1; omega
  | ⟨2, _⟩ => show win0_2.index t (2 : Fin 4) * 8 ≤ (i 2).val ∧ (i 2).val < win0_2.index t (2 : Fin 4) * 8 + 8; have h2 : (i 2).val < 8 := (i 2).isLt; omega
  | ⟨3, _⟩ => show win0_2.index t (3 : Fin 4) * 128 ≤ (i 3).val ∧ (i 3).val < win0_2.index t (3 : Fin 4) * 128 + 128; have h3 : (i 3).val < 128 := (i 3).isLt; omega

/-- THE ARRAY OF PARTIAL TOTALS after the region. -/
theorem final (hK : TileFact) (c : Dev nD) (hT : ∀ j, (labels m c j).toNat < 21) :
    (dats m 0 c).arrAt 2 cfg0.N = tiles (logits m c) (labels m c) :=
  (dats m 0 c).arrAt_eq_of_cover 2 (tiles (logits m c) (labels m c)) (fun t _ => flushed_eq m hK c hT t) cover

/-- THE RESULT after the host's lines: the total of the array, negated, over the pixel count. -/
theorem tail_eq (hK : TileFact) (c : Dev nD) (hT : ∀ j, (labels m c j).toNat < 21) :
    Pipeline.afterTail₀ cfgs (dats m) 0 (V0 m) [hostOps1] c main_v3 = fun _ => lossK (logits m c) (labels m c) := by
  unfold Pipeline.afterTail₀
  show StableHlo.after hostOps1 _ (Proc.devRef .tc main_v3) = _
  after_results
  rw [show Pipeline.withArrays (cfgs 0).spec c (V0 m c) (fun w => (dats m 0 c).arrAt w (cfgs 0).N) (Proc.devRef .tc main_v0)
      = tiles (logits m c) (labels m c) from
    (Pipeline.withArrays_arr spec0 launch0.win.arr_inj c _ _ 2).trans (final m hK c hT)]
  funext i
  simp only [Host.divf, Host.negf, Host.reduceAdd, Ideal.hostDivf_def, Ideal.hostNegf_def, Ideal.negf_def, Ideal.hostReduceAdd_def]
  rw [Ideal.hostReduceAdd_total reducesTo_S8x2x8x128_S_d0_1_2_3 (fun b => b.elim0)]
  simp only [constant, Ideal.ofBits_def, Ideal.ofBits_zero_f32, zero_add]
  rfl

/-- The kernel's run, read: the result at `lossK` of the arguments, the arguments unchanged. -/
theorem run (hK : TileFact) (hT : ∀ c j, (labels m c j).toNat < 21) :
    θ_run defs (onTc (τ := τ) (main (F := Ideal))) ⟨m, fun _ => 0, ρ⟩ fun r => ∀ c : Dev nD,
      r.2.mem ((c.tc : Thread nD τ).loc main_v3) = (fun _ => lossK (logits m c) (labels m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v3 (Pipeline.mem_restRefs_of main_v3 rfl (by decide))).trans (tail_eq m hK c (hT c)),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.KernelIdeal.KernelValue

end
-- ==== Proof.LibIndexSums.lean ====
/-
  Sums over the index sets of rank-3 and rank-4 shapes as iterated sums over the coordinates, a sum over `Fin (a · b)`
  cut into `a` runs of `b`, and the total of an array that is zero off one entry. General facts about indices: nothing
  here mentions a program.
-/
import Idealize.ShloMosaic.Lib.ValueIdx
import Mathlib.Algebra.BigOperators.Fin
import Mathlib.Logic.Equiv.Fin.Basic

noncomputable section

namespace Cert.LibIndexSums

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- A sum over `Fin (a · b)` is the sum over `a` runs of `b` consecutive terms: term `i` of run `q` is term `q · b + i`. -/
theorem sum_fin_mul {M : Type*} [AddCommMonoid M] (a b : Nat) (f : Fin (a * b) → M) :
    ∑ h, f h = ∑ q : Fin a, ∑ i : Fin b, f ⟨q.val * b + i.val, by
      have hq := q.isLt; have hi := i.isLt
      calc q.val * b + i.val < q.val * b + b := by omega
        _ = (q.val + 1) * b := by ring
        _ ≤ a * b := Nat.mul_le_mul_right b hq⟩ := by
  rw [← Equiv.sum_comp (finProdFinEquiv (m := a) (n := b)) f, Fintype.sum_prod_type]
  refine Finset.sum_congr rfl fun q _ => Finset.sum_congr rfl fun i _ => ?_
  congr 1
  apply Fin.ext
  simp only [finProdFinEquiv_apply_val]
  rw [Nat.mul_comm, Nat.add_comm]

/-- The total of an [n0 × n1] table that holds `s` at its first entry and zero elsewhere is `s`. -/
theorem sum_corner {M : Type*} [AddCommMonoid M] {n0 n1 : Nat} (h0 : 0 < n0) (h1 : 0 < n1) (s : M) :
    ∑ r : Fin n0, ∑ c : Fin n1, (if r.val = 0 ∧ c.val = 0 then s else 0) = s := by
  rw [Finset.sum_eq_single (⟨0, h0⟩ : Fin n0)]
  · rw [Finset.sum_eq_single (⟨0, h1⟩ : Fin n1)]
    · simp
    · intro c _ hc
      have : c.val ≠ 0 := fun e => hc (Fin.ext e)
      simp [this]
    · intro h; exact absurd (Finset.mem_univ _) h
  · intro r _ hr
    have : r.val ≠ 0 := fun e => hr (Fin.ext e)
    simp [this]
  · intro h; exact absurd (Finset.mem_univ _) h

end Cert.LibIndexSums

end
-- ==== Proof.TileTotals.lean ====
/-
  The total of the array of partial totals is the total over the pixels.

  Entry [b, hb, r, c] of the array is zero unless r = c = 0, where it is the total over the 256 × 512 pixels of rows
  256·hb … 256·hb + 255 of image b; a row h of 512 is row i of row block hb with h = 256·hb + i. So the sum over all
  8 · 2 · 8 · 128 entries is the sum over all 8 · 512 · 512 pixels of the label's log-probability.
-/
import proofs.«411214_j72851235275272_3_alg».proof.Proof.KernelValue
import proofs.«411214_j72851235275272_3_alg».proof.Proof.LibIndexSums

noncomputable section

open Idealize.ShloMosaic Idealize.ShloMosaic.ValueIdx

namespace Cert.KernelIdeal.KernelValue

open Cert.KernelIdeal Cert.PixelLoss Cert.LibIndexSums

/-- The label's log-probability (the kernel's way) at pixel (b, h, w). -/
abbrev pixK (Xa : S8x21x512x512.Idx → EReal) (Ta : S8x512x512.Idx → BitVec 32) (b : Fin 8) (h w : Fin 512) : EReal :=
  logProbK (fun k => Xa (ix4 b k h w)) (Ta (ix3 b h w))

/-- A tile's entries: the block's total at [0, 0], zero elsewhere. -/
theorem tiles_apply (Xa : S8x21x512x512.Idx → EReal) (Ta : S8x512x512.Idx → BitVec 32) (b : Fin 8) (hb : Fin 2)
    (r : Fin 8) (c : Fin 128) :
    tiles Xa Ta (ix4 b hb r c)
      = if r.val = 0 ∧ c.val = 0 then
          ∑ q : S1x256x512.Idx, logProbK (fun k => blockLogits Xa b hb (ix4 0 k (q 1) (q 2))) (blockLabels Ta b hb q)
        else 0 := rfl

/-- A block's total is the total over its 256 rows and 512 columns of the pixels' log-probabilities. -/
theorem block_total (Xa : S8x21x512x512.Idx → EReal) (Ta : S8x512x512.Idx → BitVec 32) (b : Fin 8) (hb : Fin 2) :
    ∑ q : S1x256x512.Idx, logProbK (fun k => blockLogits Xa b hb (ix4 0 k (q 1) (q 2))) (blockLabels Ta b hb q)
      = ∑ i : Fin 256, ∑ w : Fin 512, pixK Xa Ta b ⟨hb.val * 256 + i.val, by have := hb.isLt; have := i.isLt; omega⟩ w := by
  rw [sum_idx3, Fin.sum_univ_one]
  rfl

/-- THE TOTAL: every entry of every tile added up is every pixel's log-probability added up. -/
theorem total_tiles (Xa : S8x21x512x512.Idx → EReal) (Ta : S8x512x512.Idx → BitVec 32) :
    ∑ p : S8x2x8x128.Idx, tiles Xa Ta p
      = ∑ j : S8x512x512.Idx, logProbK (fun k => Xa (ix4 (j 0) k (j 1) (j 2))) (Ta j) := by
  rw [sum_idx4, sum_idx3]
  refine Finset.sum_congr rfl fun b _ => ?_
  have key := sum_fin_mul 2 256 (fun h : Fin (2 * 256) => ∑ w : Fin 512, pixK Xa Ta b h w)
  refine Eq.trans ?_ key.symm
  refine Finset.sum_congr rfl fun hb _ => ?_
  simp only [tiles_apply]
  rw [sum_corner (by decide) (by decide), block_total]

/-- THE TWO LOSSES AGREE on real logits: the totals run over the same pixels, each pixel's two spellings of the
    log-probability agree, and negating before or after the division by the pixel count is the same. -/
theorem lossK_eq_lossR (Xa : S8x21x512x512.Idx → EReal) (Ta : S8x512x512.Idx → BitVec 32)
    (hX : ∀ i, ∃ r : ℝ, Xa i = (r : EReal)) : lossK Xa Ta = lossR Xa Ta := by
  unfold lossK lossR
  rw [total_tiles, div_neg_count]
  congr 2
  exact Finset.sum_congr rfl fun j _ => logProb_eq (fun k => hX _) _

end Cert.KernelIdeal.KernelValue

end
-- ==== Proof.lean ====
/-
  The certificate of a cross-entropy kernel against its jnp reference, over the extended reals.

  Both programs compute the mean negative log-likelihood of a label map `target : i32[8, 512, 512]` under the
  per-pixel softmax of `pred : f32[8, 21, 512, 512]` over its 21 classes. The kernel works on sixteen blocks of
  256 rows: per pixel it takes the maximum `M` and `S = Σ_k exp (x_k − M)` over the classes, picks the label's logit by
  21 selects, forms `x_t − (M + log S)`, totals the block and leaves the total at one entry of a tile of zeros; the
  host adds up the tiles, negates and divides by the pixel count 2²¹. The reference forms `(x − M) − log S` for every
  class, gathers the label's entry along the class axis, takes the total, divides and negates.

  The precondition: every logit finite, and every label a class, `0 ≤ target < 21` (outside that range the kernel's
  clamp and the reference's gather — negative entries wrapped, the rest filled — part ways). Under it the label's
  class is the label word itself on both sides; the two spellings of the log-probability agree because `M` is a real
  number (`PixelLoss.logProb_eq`); the tiles' total is the pixels' total (`KernelValue.total_tiles`); and the sign
  moves across the division (`PixelLoss.div_neg_count`).

  The three frames: the kernel's two are the generated frame certificates; the reference's is its run with the
  result dropped. The idealization rewrote nothing, so `preserves` is `True`.
-/
import proofs.«411214_j72851235275272_3_alg».proof.Defs
import proofs.«411214_j72851235275272_3_alg».proof.Proof.Gen.Kernel
import proofs.«411214_j72851235275272_3_alg».proof.Proof.Gen.Kernel.Skeleton
import proofs.«411214_j72851235275272_3_alg».proof.Proof.Gen.Kernel.Launch
import proofs.«411214_j72851235275272_3_alg».proof.Proof.Gen.Kernel.Points
import proofs.«411214_j72851235275272_3_alg».proof.Proof.Gen.Kernel.Frame
import proofs.«411214_j72851235275272_3_alg».proof.Proof.Gen.KernelIdeal
import proofs.«411214_j72851235275272_3_alg».proof.Proof.Gen.KernelIdeal.Skeleton
import proofs.«411214_j72851235275272_3_alg».proof.Proof.Gen.KernelIdeal.Launch
import proofs.«411214_j72851235275272_3_alg».proof.Proof.Gen.KernelIdeal.Points
import proofs.«411214_j72851235275272_3_alg».proof.Proof.Gen.KernelIdeal.Frame
import proofs.«411214_j72851235275272_3_alg».proof.Proof.Gen.ReferenceIdeal
import proofs.«411214_j72851235275272_3_alg».proof.Proof.Gen.Pre_finite_inputs
import proofs.«411214_j72851235275272_3_alg».proof.Proof.PreDecode
import proofs.«411214_j72851235275272_3_alg».proof.Proof.RefRun
import proofs.«411214_j72851235275272_3_alg».proof.Proof.RefValue
import proofs.«411214_j72851235275272_3_alg».proof.Proof.TileValue
import proofs.«411214_j72851235275272_3_alg».proof.Proof.KernelValue
import proofs.«411214_j72851235275272_3_alg».proof.Proof.TileTotals
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal :
    Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, the result dropped. -/
theorem frame_referenceIdeal :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

/-- At `Ideal`, from memories agreeing on the arguments, the kernel's result is `lossK` of the arguments and the
    reference's is `lossR`; under the precondition the two are one extended real. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  have hdec := fun c => @Cert.PreDecode.decode Cert.Pre_finite_inputs.Gen.facts _ _ (hpre c)
  refine ⟨fun c => fun _ => Cert.KernelIdeal.KernelValue.lossK (Cert.KernelIdeal.KernelValue.logits m c)
      (Cert.KernelIdeal.KernelValue.labels m c),
    Cert.KernelIdeal.KernelValue.run m ρ Cert.KernelIdeal.TileValue.out_entry (fun c => (hdec c).2), ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2, Cert.ReferenceIdeal.RefValue.result_value _ _ (hdec c).2]
  funext _
  exact (Cert.KernelIdeal.KernelValue.lossK_eq_lossR _ _ (hdec c).1).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
